-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x32x512x512 : Shape := ⟨4, ![8, 32, 512, 512]⟩
abbrev S8x512x512 : Shape := ⟨3, ![8, 512, 512]⟩
abbrev S100x32 : Shape := ⟨2, ![100, 32]⟩
abbrev S_ : Shape := ⟨0, ![]⟩

class Facts : Prop where
  bcast_S_S8x32x512x512 : S_.BroadcastsInDim S8x32x512x512 (![] : Fin 0 → Fin S8x32x512x512.rank)
  reducesTo_S8x32x512x512_S_d0_1_2_3 : S8x32x512x512.ReducesTo [0, 1, 2, 3] S_
  h_S_ : 0 < S_.numel
  bcast_S_S100x32 : S_.BroadcastsInDim S100x32 (![] : Fin 0 → Fin S100x32.rank)
  reducesTo_S100x32_S_d0_1 : S100x32.ReducesTo [0, 1] S_
  bcast_S_S8x512x512 : S_.BroadcastsInDim S8x512x512 (![] : Fin 0 → Fin S8x512x512.rank)
  reducesTo_S8x512x512_S_d0_1_2 : S8x512x512.ReducesTo [0, 1, 2] S_

variable [Facts]

def fn {F : FTy → Type} [FloatOps F] (main_arg0 : FVec F S8x32x512x512 .f32) (main_arg1 : IVec S8x512x512 32) (main_arg2 : FVec F S100x32 .f32) : IVec S_ 1 :=
  let main_v0 : FVec F S8x32x512x512 .f32 := Host.absf main_arg0
  let main_cst : FVec F S_ .f32 := constant S_ .f32 0x7F800000#32
  let main_v1 : FVec F S8x32x512x512 .f32 := broadcastInDim S8x32x512x512 ![] bcast_S_S8x32x512x512 main_cst
  let main_v2 : IVec S8x32x512x512 1 := cmpf .olt main_v0 main_v1
  let main_c : IVec S_ 1 := constantI S_ 1 1#1
  let main_v3 : IVec S_ 1 := (fun x v => Host.reduce IntOp.andi x v reducesTo_S8x32x512x512_S_d0_1_2_3 h_S_) main_v2 main_c
  let main_v4 : FVec F S100x32 .f32 := Host.absf main_arg2
  let main_cst_0 : FVec F S_ .f32 := constant S_ .f32 0x7F800000#32
  let main_v5 : FVec F S100x32 .f32 := broadcastInDim S100x32 ![] bcast_S_S100x32 main_cst_0
  let main_v6 : IVec S100x32 1 := cmpf .olt main_v4 main_v5
  let main_c_1 : IVec S_ 1 := constantI S_ 1 1#1
  let main_v7 : IVec S_ 1 := (fun x v => Host.reduce IntOp.andi x v reducesTo_S100x32_S_d0_1 h_S_) main_v6 main_c_1
  let main_v8 : IVec S_ 1 := andi main_v3 main_v7
  let main_c_2 : IVec S_ 32 := constantI S_ 32 0#32
  let main_v9 : IVec S8x512x512 32 := broadcastInDim S8x512x512 ![] bcast_S_S8x512x512 main_c_2
  let main_v10 : IVec S8x512x512 1 := cmpi .sge main_arg1 main_v9
  let main_c_3 : IVec S_ 1 := constantI S_ 1 1#1
  let main_v11 : IVec S_ 1 := (fun x v => Host.reduce IntOp.andi x v reducesTo_S8x512x512_S_d0_1_2 h_S_) main_v10 main_c_3
  let main_v12 : IVec S_ 1 := andi main_v8 main_v11
  main_v12
-- ==== Kernel.lean ====
abbrev S8x32x512x512 : Shape := ⟨4, ![8, 32, 512, 512]⟩
abbrev S8x512x512 : Shape := ⟨3, ![8, 512, 512]⟩
abbrev S100x32 : Shape := ⟨2, ![100, 32]⟩
abbrev S_ : Shape := ⟨0, ![]⟩
abbrev S1 : Shape := ⟨1, ![1]⟩
abbrev S32 : Shape := ⟨1, ![32]⟩
abbrev S128x32 : Shape := ⟨2, ![128, 32]⟩
abbrev S1x32x32x512 : Shape := ⟨4, ![1, 32, 32, 512]⟩
abbrev S1x32x512 : Shape := ⟨3, ![1, 32, 512]⟩
abbrev S32x512 : Shape := ⟨2, ![32, 512]⟩
abbrev S32x512x128 : Shape := ⟨3, ![32, 512, 128]⟩
abbrev S32x512x1 : Shape := ⟨3, ![32, 512, 1]⟩
abbrev S16384x128 : Shape := ⟨2, ![16384, 128]⟩
abbrev S32x16384 : Shape := ⟨2, ![32, 16384]⟩
abbrev S32x32x512 : Shape := ⟨3, ![32, 32, 512]⟩

abbrev nBuf : Space → Nat
  | .hbm => 14
  | .vmem => 7
  | .smem => 0
  | _ => 0

abbrev bufTy : (tb : Table) → Fin (tcTables nBuf tb) → BufTy
  | .hbm, ⟨0, _⟩ => ⟨S8x32x512x512, .f32⟩
  | .hbm, ⟨1, _⟩ => ⟨S8x512x512, .i32⟩
  | .hbm, ⟨2, _⟩ => ⟨S100x32, .f32⟩
  | .hbm, ⟨3, _⟩ => ⟨S_, .i32⟩
  | .hbm, ⟨4, _⟩ => ⟨S1, .i32⟩
  | .hbm, ⟨5, _⟩ => ⟨S_, .f32⟩
  | .hbm, ⟨6, _⟩ => ⟨S32, .f32⟩
  | .hbm, ⟨7, _⟩ => ⟨S100x32, .f32⟩
  | .hbm, ⟨8, _⟩ => ⟨S_, .f32⟩
  | .hbm, ⟨9, _⟩ => ⟨S128x32, .f32⟩
  | .hbm, ⟨10, _⟩ => ⟨S_, .i32⟩
  | .hbm, ⟨11, _⟩ => ⟨S1, .i32⟩
  | .hbm, ⟨12, _⟩ => ⟨S128x32, .f32⟩
  | .hbm, ⟨13, _⟩ => ⟨S8x32x512x512, .f32⟩
  | .local _ .vmem, ⟨0, _⟩ => ⟨S1x32x32x512, .f32⟩
  | .local _ .vmem, ⟨1, _⟩ => ⟨S1x32x32x512, .f32⟩
  | .local _ .vmem, ⟨2, _⟩ => ⟨S1x32x512, .i32⟩
  | .local _ .vmem, ⟨3, _⟩ => ⟨S1x32x512, .i32⟩
  | .local _ .vmem, ⟨4, _⟩ => ⟨S128x32, .f32⟩
  | .local _ .vmem, ⟨5, _⟩ => ⟨S1x32x32x512, .f32⟩
  | .local _ .vmem, ⟨6, _⟩ => ⟨S1x32x32x512, .f32⟩
  | _, _ => ⟨S8x32x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_c_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x32x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x32x32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S1 : S_.BroadcastsInDim S1 (![] : Fin 0 → Fin S1.rank)
  bcast_S_S32 : S_.BroadcastsInDim S32 (![] : Fin 0 → Fin S32.rank)
  bcast_S_S128x32 : S_.BroadcastsInDim S128x32 (![] : Fin 0 → Fin S128x32.rank)
  inb_S1x32x512_S1x32x512_0_0_0 : ∀ a, (![0, 0, 0] : Fin 3 → Nat) a + S1x32x512.size a ≤ S1x32x512.size a
  h_S1x32x512 : 0 < S1x32x512.numel
  shapeCasts_S1x32x512_S32x512 : S1x32x512.ShapeCasts S32x512
  iota_S32x512x128_d2_w32 : S32x512x128.Iotas .tc 32 [2]
  shapeCasts_S32x512_S32x512x1 : S32x512.ShapeCasts S32x512x1
  broadcasts_S32x512x1_S32x512x128 : S32x512x1.Broadcasts S32x512x128
  natLt_1_32 : 1 < 32
  bitsLt_bf16_f32 : FTy.bits .bf16 < FTy.bits .f32
  shapeCasts_S32x512x128_S16384x128 : S32x512x128.ShapeCasts S16384x128
  inb_S128x32_S128x32_0_0 : ∀ a, (![0, 0] : Fin 2 → Nat) a + S128x32.size a ≤ S128x32.size a
  h_S128x32 : 0 < S128x32.numel
  shapeCasts_S128x32_S128x32 : S128x32.ShapeCasts S128x32
  shapeCasts_S32x16384_S32x32x512 : S32x16384.ShapeCasts S32x32x512
  inb_S1x32x32x512_S1x32x32x512_0_0_0_0 : ∀ a, (![0, 0, 0, 0] : Fin 4 → Nat) a + S1x32x32x512.size a ≤ S1x32x32x512.size a
  h_S1x32x32x512 : 0 < S1x32x32x512.numel
  shapeCasts_S1x32x32x512_S32x32x512 : S1x32x32x512.ShapeCasts S32x32x512
  shapeCasts_S32x32x512_S1x32x32x512 : S32x32x512.ShapeCasts S1x32x32x512
  scatter_S100x32_S1_S32_0_0_0_0_wf : ScatterDims.WF S100x32 S1 S32 [0] [0] [0] 0
  scatter_S128x32_S1_S100x32_01_n_0_0_wf : ScatterDims.WF S128x32 S1 S100x32 [0, 1] [] [0] 0
  dot_S128x32_S16384x128_S32x16384_0_1_1_0_n_n_wf : DotDims.WF S128x32 S16384x128 S32x16384 [0] [1] [1] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x32x512.size a ≤ S8x32x512x512.size a
  hwx0_0 : ∀ i : grid0.Coords, EltTy.bits .f32 = 32 ∨ (Rect.block (s := S8x32x512x512) S1x32x32x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x512.size a ≤ S8x512x512.size a
  hwx0_1 : ∀ i : grid0.Coords, EltTy.bits .i32 = 32 ∨ (Rect.block (s := S8x512x512) S1x32x512.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x32.size a ≤ S128x32.size a
  hwx0_2 : ∀ i : grid0.Coords, EltTy.bits .f32 = 32 ∨ (Rect.block (s := S128x32) S128x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x32x32x512.size a ≤ S8x32x512x512.size a
  hwx0_3 : ∀ i : grid0.Coords, EltTy.bits .f32 = 32 ∨ (Rect.block (s := S8x32x512x512) S1x32x32x512.size (cc0_transform_3 i) (hinb0_3 i)).WholeWords (EltTy.packing .f32)

variable [Facts₀]

def scatter_S100x32_S1_S32_0_0_0_0 : ScatterDims S100x32 S1 S32 where
  updateWindowDims := [0]
  insertedWindowDims := [0]
  scatterDimsToOperandDims := [0]
  indexVectorDim := 0
  wf := scatter_S100x32_S1_S32_0_0_0_0_wf
def scatter_S128x32_S1_S100x32_01_n_0_0 : ScatterDims S128x32 S1 S100x32 where
  updateWindowDims := [0, 1]
  insertedWindowDims := []
  scatterDimsToOperandDims := [0]
  indexVectorDim := 0
  wf := scatter_S128x32_S1_S100x32_01_n_0_0_wf
def dot_S128x32_S16384x128_S32x16384_0_1_1_0_n_n : DotDims S128x32 S16384x128 S32x16384 where
  lhsContracting := [0]
  rhsContracting := [1]
  lhsNonContracting := [1]
  rhsNonContracting := [0]
  lhsBatch := []
  rhsBatch := []
  wf := dot_S128x32_S16384x128_S32x16384_0_1_1_0_n_n_wf

abbrev win0_0 : Pipeline.Window sig grid0 :=
  Pipeline.Window.ofSpec (Memref.whole main_arg0) S1x32x32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x32x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S128x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x32x32x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x32x512x512 : Shape := ⟨4, ![8, 32, 512, 512]⟩
abbrev S8x512x512 : Shape := ⟨3, ![8, 512, 512]⟩
abbrev S100x32 : Shape := ⟨2, ![100, 32]⟩
abbrev S_ : Shape := ⟨0, ![]⟩
abbrev S1 : Shape := ⟨1, ![1]⟩
abbrev S32 : Shape := ⟨1, ![32]⟩
abbrev S8x512x512x1 : Shape := ⟨4, ![8, 512, 512, 1]⟩
abbrev S8x512x512x32 : Shape := ⟨4, ![8, 512, 512, 32]⟩

abbrev nBuf : Space → Nat
  | .hbm => 19
  | .vmem => 0
  | .smem => 0
  | _ => 0

abbrev bufTy : (tb : Table) → Fin (tcTables nBuf tb) → BufTy
  | .hbm, ⟨0, _⟩ => ⟨S8x32x512x512, .f32⟩
  | .hbm, ⟨1, _⟩ => ⟨S8x512x512, .i32⟩
  | .hbm, ⟨2, _⟩ => ⟨S100x32, .f32⟩
  | .hbm, ⟨3, _⟩ => ⟨S_, .i32⟩
  | .hbm, ⟨4, _⟩ => ⟨S1, .i32⟩
  | .hbm, ⟨5, _⟩ => ⟨S_, .f32⟩
  | .hbm, ⟨6, _⟩ => ⟨S32, .f32⟩
  | .hbm, ⟨7, _⟩ => ⟨S100x32, .f32⟩
  | .hbm, ⟨8, _⟩ => ⟨S_, .i32⟩
  | .hbm, ⟨9, _⟩ => ⟨S8x512x512, .i32⟩
  | .hbm, ⟨10, _⟩ => ⟨S8x512x512, .i1⟩
  | .hbm, ⟨11, _⟩ => ⟨S_, .i32⟩
  | .hbm, ⟨12, _⟩ => ⟨S8x512x512, .i32⟩
  | .hbm, ⟨13, _⟩ => ⟨S8x512x512, .i32⟩
  | .hbm, ⟨14, _⟩ => ⟨S8x512x512, .i32⟩
  | .hbm, ⟨15, _⟩ => ⟨S8x512x512x1, .i32⟩
  | .hbm, ⟨16, _⟩ => ⟨S8x512x512x32, .f32⟩
  | .hbm, ⟨17, _⟩ => ⟨S8x32x512x512, .f32⟩
  | .hbm, ⟨18, _⟩ => ⟨S8x32x512x512, .f32⟩
  | _, _ => ⟨S8x32x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]

class Facts₀ : Prop where
  bcast_S_S1 : S_.BroadcastsInDim S1 (![] : Fin 0 → Fin S1.rank)
  bcast_S_S32 : S_.BroadcastsInDim S32 (![] : Fin 0 → Fin S32.rank)
  bcast_S_S8x512x512 : S_.BroadcastsInDim S8x512x512 (![] : Fin 0 → Fin S8x512x512.rank)
  bcast_S8x512x512_S8x512x512x1_0_1_2 : S8x512x512.BroadcastsInDim S8x512x512x1 (![0, 1, 2] : Fin 3 → Fin S8x512x512x1.rank)
  transposes_S8x512x512x32_S8x32x512x512_0_3_1_2 : S8x512x512x32.Transposes [0, 3, 1, 2] S8x32x512x512
  scatter_S100x32_S1_S32_0_0_0_0_wf : ScatterDims.WF S100x32 S1 S32 [0] [0] [0] 0
  gather_S100x32_S8x512x512x1_S8x512x512x32_3_0_n_n_0_3_132_wf : GatherDims.WF S100x32 S8x512x512x1 S8x512x512x32 [3] [0] [] [0] [] 3 ![1, 32]

variable [Facts₀]

def scatter_S100x32_S1_S32_0_0_0_0 : ScatterDims S100x32 S1 S32 where
  updateWindowDims := [0]
  insertedWindowDims := [0]
  scatterDimsToOperandDims := [0]
  indexVectorDim := 0
  wf := scatter_S100x32_S1_S32_0_0_0_0_wf
def gather_S100x32_S8x512x512x1_S8x512x512x32_3_0_n_n_0_3_132 : GatherDims S100x32 S8x512x512x1 S8x512x512x32 where
  offsetDims := [3]
  collapsedSliceDims := [0]
  operandBatchingDims := []
  startIndicesBatchingDims := []
  startIndexMap := [0]
  indexVectorDim := 3
  sliceSizes := ![1, 32]
  wf := gather_S100x32_S8x512x512x1_S8x512x512x32_3_0_n_n_0_3_132_wf

class Facts : Prop extends Facts₀ where

variable [Facts]
-- ==== Proof.Words.lean ====
/-
  Words and sums used by the lookup: a clip of a signed word into [0, 99], the wrap of a negative word, the sign test
  of the precondition, a one-bit condition converted to an extended real, and the sum that a one-hot row selects.
-/
import Idealize.ShloMosaic.PureOps.Ideal
import Idealize.ShloMosaic.Lib.ValueIdx
import Idealize.ShloMosaic.Lib.KernelVsHost

noncomputable section

open scoped BigOperators

namespace Cert.BiasLookup

open Idealize.ShloMosaic Idealize.ShloMosaic.ValueIdx

/-- The table row a signed index word selects once clamped: the word read signed, negative words at 0, words above 99
    at 99. -/
def rowOf (w : BitVec 32) : Fin 100 := ⟨min w.toInt.toNat 99, by omega⟩

/-- The kernel's clip `min 99 (max 0 w)` on signed words, read as a natural, is the clamped row. -/
theorem clip_toNat (w : BitVec 32) : (IntOp.minsi 99#32 (IntOp.maxsi 0#32 w)).toNat = (rowOf w).val := by
  have h0 : (0#32 : BitVec 32).toInt = 0 := by decide
  have h99 : (99#32 : BitVec 32).toInt = 99 := by decide
  have n0 : (0#32 : BitVec 32).toNat = 0 := by decide
  have n99 : (99#32 : BitVec 32).toNat = 99 := by decide
  have hw := BitVec.toInt_eq_toNat_cond w
  have hlt := w.isLt
  unfold IntOp.minsi IntOp.maxsi rowOf
  simp only [BitVec.slt, decide_eq_true_eq, h0, h99]
  by_cases hneg : w.toInt < 0
  · rw [if_pos hneg, h0, if_neg (by omega), n0]
    show 0 = min w.toInt.toNat 99
    omega
  · rw [if_neg hneg]
    by_cases hbig : (99 : Int) < w.toInt
    · rw [if_pos hbig, n99]
      show 99 = min w.toInt.toNat 99
      omega
    · rw [if_neg hbig]
      show w.toNat = min w.toInt.toNat 99
      split at hw <;> omega

/-- The clipped word is below 128, the width of the one-hot row. -/
theorem clip_lt (w : BitVec 32) : (IntOp.minsi 99#32 (IntOp.maxsi 0#32 w)).toNat < 128 := by
  rw [clip_toNat]; have := (rowOf w).isLt; omega

/-- A non-negative word is not wrapped: the reference's `select (w < 0) (w + 100) w` is `w`. -/
theorem wrap_of_nonneg (w : BitVec 32) (h : 0 ≤ w.toInt) :
    Scalar.select (IntOp.cmpi .slt w 0#32) (IntOp.addi w 100#32) w = w := by
  have : IntOp.cmpi .slt w 0#32 = 0#1 := by
    unfold IntOp.cmpi
    simp only [BitVec.slt]
    have h0 : (0#32 : BitVec 32).toInt = 0 := by decide
    rw [h0, decide_eq_false (by omega)]
    rfl
  rw [this, select_zero]

/-- The precondition's sign test on one word: `w ≥ 0` signed. -/
theorem nonneg_of_sge (w : BitVec 32) (h : IntOp.cmpi .sge w 0#32 = 1#1) : 0 ≤ w.toInt := by
  unfold IntOp.cmpi at h
  simp only [BitVec.sle] at h
  have h0 : (0#32 : BitVec 32).toInt = 0 := by decide
  rw [h0] at h
  by_contra hc
  rw [decide_eq_false hc] at h
  exact absurd h (by decide)

/-- A one-bit condition widened to a word and converted to a float is 1 where the bit is set and 0 elsewhere. -/
theorem bit_to_ereal (b : BitVec 1) :
    (FloatOps.sitofp (F := Ideal) .f32 (b.setWidth 32) : EReal) = if b = 1#1 then 1 else 0 := by
  show ((((b.setWidth 32).toInt : ℝ)) : EReal) = _
  rw [toInt_setWidth_bit]
  rcases BitVec.eq_zero_or_eq_one b with h | h
  · subst h; simp
  · subst h; simp

/-- A sum of products with a one-hot row selects one term: no finiteness is needed, since a product with zero is zero
    on the extended reals. -/
theorem onehot_sum {n : Nat} (T : Fin n → EReal) (p : Fin n) :
    ∑ k : Fin n, T k * (if p = k then (1 : EReal) else 0) = T p := by
  rw [Finset.sum_eq_single p]
  · rw [if_pos rfl, mul_one]
  · intro k _ hk
    rw [if_neg (fun h => hk h.symm), mul_zero]
  · intro h; exact absurd (Finset.mem_univ p) h

end Cert.BiasLookup

end
-- ==== Proof.Payload.lean ====
/-
  The kernel body's stored value at one element of its block: the loaded score plus the table row its clipped position
  word selects. The body builds a one-hot row over 128 categories from the clipped position and contracts it against
  the 128-row table on the matrix unit; over the extended reals that contraction is the selected entry itself.
-/
import proofs.«422008_j11269994184783_3_alg».proof.Proof.Gen.KernelIdeal.Skeleton
import proofs.«422008_j11269994184783_3_alg».proof.Proof.Words
import Idealize.ShloMosaic.Lib.ValueIdx
import Idealize.ShloMosaic.Lib.Pipeline.Value
import Idealize.ShloMosaic.PureOps.Ideal.Laws

noncomputable section

open scoped BigOperators

namespace Cert.BiasLookup

open Cert.KernelIdeal Cert.KernelIdeal.Gen Idealize.ShloMosaic Idealize.ShloMosaic.ValueIdx

/-! ## The contraction's index maps -/

/-- The body's one contraction: the table `[128, 32]` contracted on its row axis against the one-hot matrix
    `[16384, 128]` on its category axis, giving `[32, 16384]`. -/
abbrev D := dot_S128x32_S16384x128_S32x16384_0_1_1_0_n_n

theorem lhs_0 (j : S32x16384.Idx) (k : D.contr.Idx) : (D.lhsIdx j k 0 : ℕ) = k ⟨0, by decide⟩ := by
  simp [DotDims.lhsIdx, D, dot_S128x32_S16384x128_S32x16384_0_1_1_0_n_n]; rfl
theorem lhs_1 (j : S32x16384.Idx) (k : D.contr.Idx) : (D.lhsIdx j k 1 : ℕ) = j 0 := by
  simp [DotDims.lhsIdx, D, dot_S128x32_S16384x128_S32x16384_0_1_1_0_n_n]; rfl
theorem rhs_0 (j : S32x16384.Idx) (k : D.contr.Idx) : (D.rhsIdx j k 0 : ℕ) = j 1 := by
  simp [DotDims.rhsIdx, D, dot_S128x32_S16384x128_S32x16384_0_1_1_0_n_n]; rfl
theorem rhs_1 (j : S32x16384.Idx) (k : D.contr.Idx) : (D.rhsIdx j k 1 : ℕ) = k ⟨0, by decide⟩ := by
  simp [DotDims.rhsIdx, D, dot_S128x32_S16384x128_S32x16384_0_1_1_0_n_n]; rfl

/-- The contraction index is one coordinate below 128. -/
abbrev cEquiv : D.contr.Idx ≃ Fin 128 := contrEquiv1 D 128 rfl rfl

/-! ## The one-hot matrix -/

/-- One entry of a one-hot row as an extended real: 1 where the word is the category, 0 elsewhere. -/
theorem onehot_entry (a : BitVec 32) (k : Nat) (hk : k < 2 ^ 32) :
    (FloatOps.sitofp (F := Ideal) .f32 ((IntOp.cmpi .eq a (BitVec.ofNat 32 k)).setWidth 32) : EReal)
      = if a.toNat = k then 1 else 0 := by
  rw [bit_to_ereal]
  refine if_congr ?_ rfl rfl
  unfold IntOp.cmpi
  show BitVec.ofBool (a == BitVec.ofNat 32 k) = 1#1 ↔ _
  constructor
  · intro h
    have hb : (a == BitVec.ofNat 32 k) = true := by
      cases hb : (a == BitVec.ofNat 32 k) with
      | true => rfl
      | false => rw [hb] at h; exact absurd h (by decide)
    have he := beq_iff_eq.mp hb
    rw [he, BitVec.toNat_ofNat, Nat.mod_eq_of_lt hk]
  · intro h
    have he : a = BitVec.ofNat 32 k := by
      apply BitVec.eq_of_toNat_eq
      rw [BitVec.toNat_ofNat, Nat.mod_eq_of_lt hk]; exact h
    rw [he]; simp

/-- The row of the 128-row table a position word selects in the kernel: its clip into [0, 99]. -/
def rowK (w : BitVec 32) : Fin 128 := ⟨(IntOp.minsi 99#32 (IntOp.maxsi 0#32 w)).toNat, clip_lt w⟩

/-- It is the clamped row of the 100-row table. -/
theorem rowK_val (w : BitVec 32) : (rowK w).val = (rowOf w).val := clip_toNat w

/-- The position block clipped into the table's rows, as the body computes it. -/
def clipped (x1 : IVec S1x32x512 32) : IVec S32x512 32 :=
  minsi (broadcast S32x512 99#32) (maxsi (broadcast S32x512 0#32) (shapeCast S32x512 x1 shapeCasts_S1x32x512_S32x512))

/-- The clipped block at a position is the clip of the loaded word there. -/
theorem clipped_apply (x1 : IVec S1x32x512 32) (l : Fin 32) (s : Fin 512) :
    clipped x1 (ix2 l s) = IntOp.minsi 99#32 (IntOp.maxsi 0#32 (x1 (ix3 (0 : Fin 1) l s))) := by
  show IntOp.minsi 99#32 (IntOp.maxsi 0#32 (shapeCast S32x512 x1 shapeCasts_S1x32x512_S32x512 (ix2 l s))) = _
  rw [shapeCast_apply x1 shapeCasts_S1x32x512_S32x512 (ix2 l s) (ix3 (0 : Fin 1) l s) (by
    rw [Shape.rowMajor_val_three, Shape.rowMajor_val_two]
    show ((0 : Fin 1).val * 32 + l.val) * 512 + s.val = l.val * 512 + s.val
    simp)]

/-- The one-hot matrix the body builds: row `l * 512 + s` has its one at the clipped position's category. -/
def onehotM (x1 : IVec S1x32x512 32) : FVec Ideal S16384x128 .bf16 :=
  shapeCast S16384x128
    (truncf .bf16
      (sitofp .f32
        (extui 32
          (cmpi .eq
            (broadcastTo S32x512x128 (shapeCast S32x512x1 (clipped x1) shapeCasts_S32x512_S32x512x1) broadcasts_S32x512x1_S32x512x128)
            (iota .tc S32x512x128 32 [2] iota_S32x512x128_d2_w32))
          natLt_1_32))
      bitsLt_bf16_f32)
    shapeCasts_S32x512x128_S16384x128

theorem onehotM_apply (x1 : IVec S1x32x512 32) (l : Fin 32) (s : Fin 512) (k : Fin 128) (mrow : Fin 16384)
    (hm : mrow.val = l.val * 512 + s.val) :
    (onehotM x1 (ix2 mrow k) : EReal)
      = if (IntOp.minsi 99#32 (IntOp.maxsi 0#32 (x1 (ix3 (0 : Fin 1) l s)))).toNat = k.val then 1 else 0 := by
  unfold onehotM
  refine (shapeCast_apply _ shapeCasts_S32x512x128_S16384x128 (ix2 mrow k) (ix3 l s k) (by
    rw [Shape.rowMajor_val_three, Shape.rowMajor_val_two]
    show (l.val * 512 + s.val) * 128 + k.val = mrow.val * 128 + k.val
    rw [hm])).trans ?_
  show (FloatOps.sitofp (F := Ideal) .f32 ((IntOp.cmpi .eq
      (broadcastTo S32x512x128 (shapeCast S32x512x1 (clipped x1) shapeCasts_S32x512_S32x512x1) broadcasts_S32x512x1_S32x512x128 (ix3 l s k))
      (iota .tc S32x512x128 32 [2] iota_S32x512x128_d2_w32 (ix3 l s k))).setWidth 32) : EReal) = _
  have hb : broadcastTo S32x512x128 (shapeCast S32x512x1 (clipped x1) shapeCasts_S32x512_S32x512x1) broadcasts_S32x512x1_S32x512x128 (ix3 l s k)
      = clipped x1 (ix2 l s) := by
    refine (broadcastTo_apply _ broadcasts_S32x512x1_S32x512x128 (ix3 l s k) (ix3 l s (0 : Fin 1)) (fun a => by
      match a with
      | ⟨0, _⟩ => show l.val = if (32 : Nat) = 1 then 0 else l.val; rw [if_neg (by decide)]
      | ⟨1, _⟩ => show s.val = if (512 : Nat) = 1 then 0 else s.val; rw [if_neg (by decide)]
      | ⟨2, _⟩ => show (0 : Fin 1).val = if (1 : Nat) = 1 then 0 else k.val; rw [if_pos rfl]; rfl)).trans ?_
    exact shapeCast_apply _ shapeCasts_S32x512_S32x512x1 (ix3 l s (0 : Fin 1)) (ix2 l s) (by
      rw [Shape.rowMajor_val_three, Shape.rowMajor_val_two]
      show l.val * 512 + s.val = (l.val * 512 + s.val) * 1 + (0 : Fin 1).val
      simp)
  have hi : iota .tc S32x512x128 32 [2] iota_S32x512x128_d2_w32 (ix3 l s k) = BitVec.ofNat 32 k.val := by
    show BitVec.ofNat 32 (0 * 128 + k.val) = _
    rw [Nat.zero_mul, Nat.zero_add]
  rw [hb, hi, clipped_apply, onehot_entry _ _ (by have := k.isLt; omega)]

/-! ## The contraction selects a table entry -/

/-- The bias the body computes: the table contracted against the one-hot matrix. -/
def biasM (x1 : IVec S1x32x512 32) (x2 : FVec Ideal S128x32 .f32) : FVec Ideal S32x16384 .f32 :=
  matmul D none (truncf .bf16 (shapeCast S128x32 x2 shapeCasts_S128x32_S128x32) bitsLt_bf16_f32) (onehotM x1)
    (constant S32x16384 .f32 0x00000000#32)

/-- The sum over the 128 categories of table entry times one-hot entry is the table entry at the clipped position:
    entry `(h, l * 512 + s)` of the bias is the table at row `clip (pos l s)`, column `h`. -/
theorem biasM_apply (x1 : IVec S1x32x512 32) (x2 : FVec Ideal S128x32 .f32) (h l : Fin 32) (s : Fin 512) (mrow : Fin 16384)
    (hm : mrow.val = l.val * 512 + s.val) :
    biasM x1 x2 (ix2 h mrow)
      = x2 (ix2 (rowK (x1 (ix3 (0 : Fin 1) l s))) h) := by
  unfold biasM
  refine (Ideal.matmul_constant_zero_apply D none _ _ (ix2 h mrow)).trans ?_
  rw [← Equiv.sum_comp cEquiv.symm]
  have hterm : ∀ k : Fin 128,
      (truncf .bf16 (shapeCast S128x32 x2 shapeCasts_S128x32_S128x32) bitsLt_bf16_f32 : FVec Ideal S128x32 .bf16)
          (D.lhsIdx (ix2 h mrow) (cEquiv.symm k))
        * onehotM x1 (D.rhsIdx (ix2 h mrow) (cEquiv.symm k))
      = (fun k : Fin 128 => (x2 (ix2 k h) : EReal)) k
        * (if (rowK (x1 (ix3 (0 : Fin 1) l s))) = k then (1 : EReal) else 0) := by
    intro k
    have hl : D.lhsIdx (ix2 h mrow) (cEquiv.symm k) = ix2 k h :=
      Shape.idx_ext₂ (by rw [lhs_0]; exact contrEquiv1_symm_val D 128 rfl rfl k) (by rw [lhs_1])
    have hr : D.rhsIdx (ix2 h mrow) (cEquiv.symm k) = ix2 mrow k :=
      Shape.idx_ext₂ (by rw [rhs_0]) (by rw [rhs_1]; exact contrEquiv1_symm_val D 128 rfl rfl k)
    rw [hl, hr, onehotM_apply x1 l s k mrow hm]
    show (shapeCast S128x32 x2 shapeCasts_S128x32_S128x32 (ix2 k h) : EReal) * _ = _
    rw [shapeCast_self]
    refine congrArg (fun t : EReal => (x2 (ix2 k h) : EReal) * t) (if_congr ?_ rfl rfl)
    exact ⟨fun e => Fin.ext e, fun e => congrArg Fin.val e⟩
  rw [Finset.sum_congr rfl (fun k _ => hterm k)]
  exact onehot_sum (fun k : Fin 128 => (x2 (ix2 k h) : EReal)) _

/-! ## The stored value -/

/-- The body's stored value is the loaded score block plus the bias, re-laid to the block's shape. -/
theorem pay_eq (x1 : IVec S1x32x512 32) (x2 : FVec Ideal S128x32 .f32) (x0 : FVec Ideal S1x32x32x512 .f32) :
    k0_pay1 (F := Ideal) x1 x2 x0
      = shapeCast S1x32x32x512
          (addf (shapeCast S32x32x512 x0 shapeCasts_S1x32x32x512_S32x32x512)
            (shapeCast S32x32x512 (biasM x1 x2) shapeCasts_S32x16384_S32x32x512))
          shapeCasts_S32x32x512_S1x32x32x512 := rfl

/-- THE STORED VALUE AT AN ELEMENT: the score there plus the table entry at the clipped position's row and the
    element's head column. -/
theorem pay_apply (x1 : IVec S1x32x512 32) (x2 : FVec Ideal S128x32 .f32) (x0 : FVec Ideal S1x32x32x512 .f32)
    (z : Fin 1) (h l : Fin 32) (s : Fin 512) :
    k0_pay1 (F := Ideal) x1 x2 x0 (ix4 z h l s)
      = (x0 (ix4 z h l s) : EReal)
        + x2 (ix2 (rowK (x1 (ix3 (0 : Fin 1) l s))) h) := by
  rw [pay_eq]
  refine (shapeCast_apply _ shapeCasts_S32x32x512_S1x32x32x512 (ix4 z h l s) (ix3 h l s) (by
    rw [Shape.rowMajor_val_three, Shape.rowMajor_val_four]
    show (h.val * 32 + l.val) * 512 + s.val = ((z.val * 32 + h.val) * 32 + l.val) * 512 + s.val
    have := z.isLt; omega)).trans ?_
  show (shapeCast S32x32x512 x0 shapeCasts_S1x32x32x512_S32x32x512 (ix3 h l s) : EReal)
      + shapeCast S32x32x512 (biasM x1 x2) shapeCasts_S32x16384_S32x32x512 (ix3 h l s) = _
  rw [shapeCast_apply x0 shapeCasts_S1x32x32x512_S32x32x512 (ix3 h l s) (ix4 z h l s) (by
      rw [Shape.rowMajor_val_three, Shape.rowMajor_val_four]
      show ((z.val * 32 + h.val) * 32 + l.val) * 512 + s.val = (h.val * 32 + l.val) * 512 + s.val
      have := z.isLt; omega),
    shapeCast_apply (biasM x1 x2) shapeCasts_S32x16384_S32x32x512 (ix3 h l s)
      (ix2 h (⟨l.val * 512 + s.val, by have := l.isLt; have := s.isLt; omega⟩ : Fin 16384)) (by
      rw [Shape.rowMajor_val_three, Shape.rowMajor_val_two]
      show h.val * 16384 + (l.val * 512 + s.val) = (h.val * 32 + l.val) * 512 + s.val
      omega),
    biasM_apply x1 x2 h l s _ rfl]

end Cert.BiasLookup

end
-- ==== Proof.Blocks.lean ====
/-
  From blocks to the array: what grid point `t` writes back is block `t` of ONE function of the arrays the region
  finds — the score at the element plus the padded table's entry at the clipped position's row and the element's head
  column — and the 8 × 16 blocks tile the result array, so after the run the array is that function.
-/
import proofs.«422008_j11269994184783_3_alg».proof.Proof.Gen.KernelIdeal.Value
import proofs.«422008_j11269994184783_3_alg».proof.Proof.Payload
import Idealize.ShloMosaic.Lib.ValueIdx
import Idealize.ShloMosaic.Lib.Pipeline.Value

set_option maxRecDepth 16384

noncomputable section

namespace Cert.BiasLookup

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The kernel's result as one function of the score array, the position array and the 128-row table: at element
    `(n, h, l, s)` the score plus the table at row `clip (pos n l s)`, column `h`. -/
def kernelFn (qk : FVec Ideal S8x32x512x512 .f32) (pos : IVec S8x512x512 32) (tp : FVec Ideal S128x32 .f32) :
    FVec Ideal S8x32x512x512 .f32 :=
  fun i => (qk i : EReal) + tp (ix2 (rowK (pos (ix3 (i 0) (i 2) (i 3)))) (i 1))

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The printed index maps, decided over the 128 grid points: the score window moves with the result window; the
    position window's batch and row-block indices are the result window's; the table window stays at the origin; the
    result window's head and lane block indices are 0, its batch index below 8 and its row-block index below 16. -/
theorem idx_facts : ∀ t : Fin cfg0.N,
    win0_0.index t (0 : Fin 4) = win0_3.index t (0 : Fin 4)
    ∧ win0_0.index t (1 : Fin 4) = win0_3.index t (1 : Fin 4)
    ∧ win0_0.index t (2 : Fin 4) = win0_3.index t (2 : Fin 4)
    ∧ win0_0.index t (3 : Fin 4) = win0_3.index t (3 : Fin 4)
    ∧ win0_1.index t (0 : Fin 3) = win0_3.index t (0 : Fin 4)
    ∧ win0_1.index t (1 : Fin 3) = win0_3.index t (2 : Fin 4)
    ∧ win0_1.index t (2 : Fin 3) = 0
    ∧ win0_2.index t (0 : Fin 2) = 0
    ∧ win0_2.index t (1 : Fin 2) = 0
    ∧ win0_3.index t (1 : Fin 4) = 0
    ∧ win0_3.index t (3 : Fin 4) = 0
    ∧ win0_3.index t (0 : Fin 4) < 8
    ∧ win0_3.index t (2 : Fin 4) < 16 :=
  (by decide +kernel : ∀ t : Fin grid0.N, _)

/-- Every (batch, row-block) pair is some grid point's. -/
theorem idx_onto : ∀ (q0 : Fin 8) (q2 : Fin 16), ∃ t : Fin cfg0.N, win0_3.index t = ![q0.val, 0, q2.val, 0] :=
  (by decide +kernel : ∀ (q0 : Fin 8) (q2 : Fin 16), ∃ t : Fin grid0.N, win0_3.index t = ![q0.val, 0, q2.val, 0])

/-- WHAT POINT `t` WRITES BACK is block `t` of `kernelFn` of the arrays as the region finds them. -/
theorem flushed_eq (c : Dev nD) (t : Fin cfg0.N) :
    (dats m 0 c).flushed 3 t
      = ((cfg0.win 3).blk t).view.read (Elt Ideal) (kernelFn (V m c main_arg0) (V m c main_arg1) (V m c main_v5)) := by
  rw [Cert.KernelIdeal.Value.flushed3]
  unfold out0_3
  rw [View.canon_unit_zero hz4]
  simp only [View.ld_unit_zero (S := S1x32x512) hz3, View.ld_unit_zero (S := S128x32) hz2,
    View.ld_unit_zero (S := S1x32x32x512) hz4]
  obtain ⟨e00, e01, e02, e03, e10, e11, e12, e20, e21, e31, e33, _, _⟩ := idx_facts t
  funext j
  obtain ⟨z, h, l, s, rfl⟩ : ∃ (z : Fin 1) (h l : Fin 32) (s : Fin 512), j = ix4 z h l s :=
    ⟨j 0, j 1, j 2, j 3, eq_ix4 j⟩
  have hz : z.val = 0 := by have := z.isLt; omega
  show k0_pay1 (F := Ideal) (iblk m c 1 t) (iblk m c 2 t) (iblk m c 0 t) (ix4 z h l s)
    = kernelFn (V m c main_arg0) (V m c main_arg1) (V m c main_v5) (((cfg0.win 3).blk t).view.emb (ix4 z h l s))
  refine (pay_apply (iblk m c 1 t) (iblk m c 2 t) (iblk m c 0 t) z h l s).trans ?_
  -- the score block at the element is the score array at the element's place in the result's block
  have h0 : iblk m c 0 t (ix4 z h l s) = V m c main_arg0 (((cfg0.win 3).blk t).view.emb (ix4 z h l s)) := by
    show V m c main_arg0 (((cfg0.win 0).blk t).view.emb (ix4 z h l s)) = _
    refine congrArg (V m c main_arg0) (funext fun a => Fin.ext ?_)
    match a with
    | ⟨0, _⟩ => show win0_0.index t (0 : Fin 4) * 1 + 1 * z.val = win0_3.index t (0 : Fin 4) * 1 + 1 * z.val; omega
    | ⟨1, _⟩ => show win0_0.index t (1 : Fin 4) * 32 + 1 * h.val = win0_3.index t (1 : Fin 4) * 32 + 1 * h.val; omega
    | ⟨2, _⟩ => show win0_0.index t (2 : Fin 4) * 32 + 1 * l.val = win0_3.index t (2 : Fin 4) * 32 + 1 * l.val; omega
    | ⟨3, _⟩ => show win0_0.index t (3 : Fin 4) * 512 + 1 * s.val = win0_3.index t (3 : Fin 4) * 512 + 1 * s.val; omega
  -- the position block at (0, l, s) is the position array at the element's batch, row and lane
  have h1 : iblk m c 1 t (ix3 (0 : Fin 1) l s)
      = V m c main_arg1 (ix3 ((((cfg0.win 3).blk t).view.emb (ix4 z h l s)) 0) ((((cfg0.win 3).blk t).view.emb (ix4 z h l s)) 2)
          ((((cfg0.win 3).blk t).view.emb (ix4 z h l s)) 3)) := by
    show V m c main_arg1 (((cfg0.win 1).blk t).view.emb (ix3 (0 : Fin 1) l s)) = _
    refine congrArg (V m c main_arg1) (funext fun a => Fin.ext ?_)
    match a with
    | ⟨0, _⟩ => show win0_1.index t (0 : Fin 3) * 1 + 1 * (0 : Fin 1).val = win0_3.index t (0 : Fin 4) * 1 + 1 * z.val; simp only [Fin.val_zero]; omega
    | ⟨1, _⟩ => show win0_1.index t (1 : Fin 3) * 32 + 1 * l.val = win0_3.index t (2 : Fin 4) * 32 + 1 * l.val; omega
    | ⟨2, _⟩ => show win0_1.index t (2 : Fin 3) * 512 + 1 * s.val = win0_3.index t (3 : Fin 4) * 512 + 1 * s.val; omega
  -- the table block is the whole table
  have h2 : ∀ r : Fin 128, iblk m c 2 t (ix2 r h)
      = V m c main_v5 (ix2 r ((((cfg0.win 3).blk t).view.emb (ix4 z h l s)) 1)) := by
    intro r
    show V m c main_v5 (((cfg0.win 2).blk t).view.emb (ix2 r h)) = _
    refine congrArg (V m c main_v5) (funext fun a => Fin.ext ?_)
    match a with
    | ⟨0, _⟩ => show win0_2.index t (0 : Fin 2) * 128 + 1 * r.val = r.val; omega
    | ⟨1, _⟩ => show win0_2.index t (1 : Fin 2) * 32 + 1 * h.val = win0_3.index t (1 : Fin 4) * 32 + 1 * h.val; omega
  rw [h0, h1, h2]
  rfl

/-- An element of the result array is in point `t`'s block iff each coordinate is in the block's range on its axis. -/
theorem mem_blk (t : Fin cfg0.N) (i : S8x32x512x512.Idx) :
    i ∈ ((cfg0.win 3).blk t).view.set
      ↔ ∀ a : Fin 4, win0_3.index t a * S1x32x32x512.size a ≤ (i a).val
          ∧ (i a).val < win0_3.index t a * S1x32x32x512.size a + S1x32x32x512.size a := by
  show i ∈ ((View.whole main_v6).slice (win0_3.rect t)).set ↔ _
  rw [View.set_slice_whole, Rect.mem_set_unit]
  exact Iff.rfl

/-- The blocks tile the result array: element `(n, h, l, s)` is in the block of the point with batch index `n` and
    row-block index `l / 32`. -/
theorem covered (i : S8x32x512x512.Idx) :
    ∃ t : Fin cfg0.N, (cfg0.win 3).flush t = true ∧ i ∈ ((cfg0.win 3).blk t).view.set := by
  have hi0 : (i 0).val < 8 := (i 0).isLt
  have hi1 : (i 1).val < 32 := (i 1).isLt
  have hi2 : (i 2).val < 512 := (i 2).isLt
  have hi3 : (i 3).val < 512 := (i 3).isLt
  obtain ⟨t, ht⟩ := idx_onto ⟨(i 0).val, hi0⟩ ⟨(i 2).val / 32, by omega⟩
  have q0 : win0_3.index t (0 : Fin 4) = (i 0).val := congrFun ht 0
  have q1 : win0_3.index t (1 : Fin 4) = 0 := congrFun ht 1
  have q2 : win0_3.index t (2 : Fin 4) = (i 2).val / 32 := congrFun ht 2
  have q3 : win0_3.index t (3 : Fin 4) = 0 := congrFun ht 3
  refine ⟨t, flush0_3 t, ?_⟩
  rw [mem_blk]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 32 ≤ (i 1).val ∧ (i 1).val < win0_3.index t (1 : Fin 4) * 32 + 32; omega
  | ⟨2, _⟩ => show win0_3.index t (2 : Fin 4) * 32 ≤ (i 2).val ∧ (i 2).val < win0_3.index t (2 : Fin 4) * 32 + 32; omega
  | ⟨3, _⟩ => show win0_3.index t (3 : Fin 4) * 512 ≤ (i 3).val ∧ (i 3).val < win0_3.index t (3 : Fin 4) * 512 + 512; omega

/-- THE RESULT ARRAY after the run is `kernelFn` of the arrays as the region finds them. -/
theorem final (c : Dev nD) :
    (dats m 0 c).arrAt 3 cfg0.N = kernelFn (V m c main_arg0) (V m c main_arg1) (V m c main_v5) :=
  (dats m 0 c).arrAt_eq_of_cover 3 (kernelFn (V m c main_arg0) (V m c main_arg1) (V m c main_v5))
    (fun t _ => flushed_eq m c t) covered

/-- The kernel's run, read: the result array at `kernelFn` of the launch's score and position arrays and of the table
    the host prefix leaves; the arguments unchanged. -/
theorem run_kernel : θ_run defs (onTc (τ := τ) (main (F := Ideal))) ⟨m, fun _ => 0, ρ⟩ fun r => ∀ c : Dev nD,
      r.2.mem ((c : Thread nD τ).loc main_v6)
        = kernelFn (m ((c : Thread nD τ).loc main_arg0)) (m ((c : Thread nD τ).loc main_arg1)) (V m c main_v5)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨by rw [(h c).1, final m c, V_main_arg0, V_main_arg1], (h c).2⟩)
    (Cert.KernelIdeal.Value.run_blocks m ρ)

end Cert.BiasLookup

end
-- ==== Proof.LibScatterSet.lean ====
/-
  A set-scatter whose updates land on pairwise distinct elements, read at an element.

  A scatter whose body returns the update ("set") is a fold of single-element overwrites, one per update element.
  When every update element has a landing element inside the operand and no two of them land on the same element,
  the order of the overwrites is immaterial: the result holds each update element at its landing element and the
  operand everywhere else.
-/
import Idealize.ShloMosaic.PureOps.ShapeOps

namespace Cert.LibScatterSet

open Idealize.ShloMosaic

/-- A fold of single-point overwrites `r ↦ r[p k := v k]` over a list of keys, when `p` is injective: the result
    holds `v k` at `p k` for every key `k` of the list, and the start value at every point no key of the list is
    sent to. By induction on the list from its last element: the last overwrite decides the point it writes, and at
    any other point the fold of the shorter list is read, where a key sent to the same point as the last one would be
    the last one. -/
theorem foldl_overwrite {ι κ α : Type} [DecidableEq ι] (p : κ → ι) (v : κ → α) (hp : Function.Injective p)
    (x : ι → α) (l : List κ) :
    (∀ k ∈ l, l.foldl (fun r k => fun i' => if i' = p k then v k else r i') x (p k) = v k) ∧
    (∀ i', (∀ k ∈ l, p k ≠ i') → l.foldl (fun r k => fun i' => if i' = p k then v k else r i') x i' = x i') := by
  induction l using List.reverseRecOn with
  | nil => exact ⟨fun k hk => absurd hk (List.not_mem_nil), fun i' _ => rfl⟩
  | append_singleton l n ih =>
    obtain ⟨ih1, ih2⟩ := ih
    refine ⟨fun k hk => ?_, fun i' hi' => ?_⟩
    · rw [List.foldl_append, List.foldl_cons, List.foldl_nil]
      by_cases hkn : p k = p n
      · rw [if_pos hkn, hp hkn]
      · rw [if_neg hkn]
        rcases List.mem_append.1 hk with h | h
        · exact ih1 k h
        · exact absurd (congrArg p (List.mem_singleton.1 h)) hkn
    · rw [List.foldl_append, List.foldl_cons, List.foldl_nil]
      have hn : i' ≠ p n := fun h => hi' n (List.mem_append_right _ (List.mem_singleton_self n)) h.symm
      rw [if_neg hn]
      exact ih2 i' fun k hk => hi' k (List.mem_append_left _ hk)

variable {s si u : Shape} {α : Type} {w : Nat}

/-- A set-scatter (`fun _ b => b`: the body returns the update) every one of whose update elements `j` lands inside
    the operand, at `land j`, no two on the same element: the result holds `upd j` at `land j`, and the operand's
    element at every index no update element lands on. -/
theorem scatter_set (d : ScatterDims s si u) (x : s.Idx → α) (idx : IVec si w) (upd : u.Idx → α)
    (land : u.Idx → s.Idx) (hland : ∀ j, d.resultIdx? j idx = some (land j)) (hinj : Function.Injective land) :
    (∀ j, Host.scatter d (fun _ b => b) x idx upd (land j) = upd j) ∧
    (∀ i', (∀ j, land j ≠ i') → Host.scatter d (fun _ b => b) x idx upd i' = x i') := by
  -- the scatter's fold is a fold of overwrites at `land` of the update element each position names
  have hfold : Host.scatter d (fun _ b => b) x idx upd
      = (List.finRange u.numel).foldl
          (fun r n => fun i' => if i' = land (u.rowMajor.symm n) then upd (u.rowMajor.symm n) else r i') x := by
    unfold Host.scatter
    congr 1
    funext r n
    rw [hland]
  have hp : Function.Injective fun n : Fin u.numel => land (u.rowMajor.symm n) :=
    hinj.comp u.rowMajor.symm.injective
  obtain ⟨h1, h2⟩ := foldl_overwrite (fun n : Fin u.numel => land (u.rowMajor.symm n))
    (fun n => upd (u.rowMajor.symm n)) hp x (List.finRange u.numel)
  rw [hfold]
  refine ⟨fun j => ?_, fun i' hi' => ?_⟩
  · have := h1 (u.rowMajor j) (List.mem_finRange _)
    simpa only [Equiv.symm_apply_apply] using this
  · exact h2 i' fun n _ => hi' _

end Cert.LibScatterSet
-- ==== Proof.HostTable.lean ====
/-
  The table the kernel's region finds: the host prefix zeroes row 0 of the 100-row embedding table and writes the
  result into the first 100 rows of a zero table of 128 rows. Read at a row below 100, the padded table is the
  row-0-zeroed table.
-/
import proofs.«422008_j11269994184783_3_alg».proof.Proof.Gen.KernelIdeal.Frame
import proofs.«422008_j11269994184783_3_alg».proof.Proof.LibScatterSet
import Idealize.ShloMosaic.Lib.ValueIdx
import Idealize.ShloMosaic.Lib.StableHlo.Run

noncomputable section

namespace Cert.BiasLookup

open Cert.KernelIdeal Cert.KernelIdeal.Gen Idealize.ShloMosaic Idealize.ShloMosaic.ValueIdx Idealize.ShloMosaic.StableHlo

variable {F : FTy → Type} [FloatOps F]

/-- The embedding table with row 0 set to zero, as the kernel's host prefix computes it. -/
def tableK (x2 : FVec F S100x32 .f32) : FVec F S100x32 .f32 :=
  Host.scatter scatter_S100x32_S1_S32_0_0_0_0 (fun _ b => b) x2
    (broadcastInDim S1 ![] bcast_S_S1 (constantI S_ 32 0#32))
    (broadcastInDim S32 ![] bcast_S_S32 (constant S_ .f32 0x00000000#32))

/-- A 100-row table written at row 0 into 128 rows of zeros. -/
def padded (T : FVec F S100x32 .f32) : FVec F S128x32 .f32 :=
  Host.scatter scatter_S128x32_S1_S100x32_01_n_0_0 (fun _ b => b)
    (broadcastInDim S128x32 ![] bcast_S_S128x32 (constant S_ .f32 0x00000000#32))
    (broadcastInDim S1 ![] bcast_S_S1 (constantI S_ 32 0#32))
    T

abbrev dPad := scatter_S128x32_S1_S100x32_01_n_0_0

/-- Where element `j` of the 100-row table lands in the 128-row one: at the same row and column. -/
def landPad (j : S100x32.Idx) : S128x32.Idx := ix2 ⟨(j 0).val, by have := idx2_lt0 j; omega⟩ (j 1)

theorem landPad_inj : Function.Injective landPad := by
  intro j j' h
  have h0 := congrArg (fun i : S128x32.Idx => (i 0).val) h
  have h1 := congrArg (fun i : S128x32.Idx => (i 1).val) h
  rw [eq_ix2 j, eq_ix2 j']
  congr 1
  · exact Fin.ext h0
  · exact Fin.ext h1

theorem start_pad (j : S100x32.Idx) (a : Fin 2) :
    dPad.start j (broadcastInDim S1 ![] bcast_S_S1 (constantI S_ 32 0#32)) a = 0 := by
  unfold ScatterDims.start
  split
  · show (0#32 : BitVec 32).toInt = 0
    decide
  · rfl

theorem window_pad_0 (j : S100x32.Idx) : dPad.window j 0 = (j 0).val := by
  simp [ScatterDims.window, dPad, scatter_S128x32_S1_S100x32_01_n_0_0, Shape.kept]; rfl
theorem window_pad_1 (j : S100x32.Idx) : dPad.window j 1 = (j 1).val := by
  simp [ScatterDims.window, dPad, scatter_S128x32_S1_S100x32_01_n_0_0, Shape.kept]; rfl

theorem land_pad (j : S100x32.Idx) :
    dPad.resultIdx? j (broadcastInDim S1 ![] bcast_S_S1 (constantI S_ 32 0#32)) = some (landPad j) := by
  have hall : ∀ a, 0 ≤ dPad.start j (broadcastInDim S1 ![] bcast_S_S1 (constantI S_ 32 0#32)) a + (dPad.window j a : Int)
      ∧ dPad.start j (broadcastInDim S1 ![] bcast_S_S1 (constantI S_ 32 0#32)) a + (dPad.window j a : Int) < S128x32.size a := by
    intro a
    rw [start_pad]
    match a with
    | ⟨0, hlt⟩ =>
      rw [show dPad.window j ⟨0, hlt⟩ = (j 0).val from window_pad_0 j]
      have := idx2_lt0 j
      show 0 ≤ (0 : Int) + ((j 0).val : Int) ∧ (0 : Int) + ((j 0).val : Int) < ((128 : Nat) : Int)
      omega
    | ⟨1, hlt⟩ =>
      rw [show dPad.window j ⟨1, hlt⟩ = (j 1).val from window_pad_1 j]
      have := idx2_lt1 j
      show 0 ≤ (0 : Int) + ((j 1).val : Int) ∧ (0 : Int) + ((j 1).val : Int) < ((32 : Nat) : Int)
      omega
  unfold ScatterDims.resultIdx?
  rw [dif_pos hall]
  congr 1
  funext a
  apply Fin.ext
  show (dPad.start j (broadcastInDim S1 ![] bcast_S_S1 (constantI S_ 32 0#32)) a + (dPad.window j a : Int)).toNat = (landPad j a).val
  rw [start_pad]
  match a with
  | ⟨0, hlt⟩ =>
    rw [show dPad.window j ⟨0, hlt⟩ = (j 0).val from window_pad_0 j]
    show ((0 : Int) + ((j 0).val : Int)).toNat = (j 0).val
    omega
  | ⟨1, hlt⟩ =>
    rw [show dPad.window j ⟨1, hlt⟩ = (j 1).val from window_pad_1 j]
    show ((0 : Int) + ((j 1).val : Int)).toNat = (j 1).val
    omega

/-- THE PADDED TABLE BELOW ROW 100 is the table itself. -/
theorem padded_apply (T : FVec F S100x32 .f32) (k : Fin 100) (h : Fin 32) :
    padded T (ix2 (⟨k.val, by have := k.isLt; omega⟩ : Fin 128) h) = T (ix2 k h) :=
  (Cert.LibScatterSet.scatter_set dPad _ _ T landPad land_pad landPad_inj).1 (ix2 k h)

end Cert.BiasLookup

end
-- ==== Proof.Reference.lean ====
/-
  The reference read at an element: the score plus the row-0-zeroed table's entry at the position word's row — the word
  wrapped when negative, then clamped into [0, 99] by the gather — and the element's head column. Under the
  precondition the word is non-negative and the wrap is the identity.
-/
import proofs.«422008_j11269994184783_3_alg».proof.Proof.Gen.ReferenceIdeal.Read
import proofs.«422008_j11269994184783_3_alg».proof.Proof.Words
import Idealize.ShloMosaic.Lib.ValueIdx
import Idealize.ShloMosaic.Lib.Pipeline.Value

noncomputable section

namespace Cert.BiasLookup

open Cert.ReferenceIdeal Cert.ReferenceIdeal.Gen Cert.ReferenceIdeal.Read Idealize.ShloMosaic Idealize.ShloMosaic.ValueIdx

/-! ## The gather of whole table rows -/

/-- The reference's gather: rows of the `[100, 32]` table at the `[8, 512, 512, 1]` array of row indices. -/
abbrev gR := gather_S100x32_S8x512x512x1_S8x512x512x32_3_0_n_n_0_3_132

theorem gR_off_0 (j : S8x512x512x32.Idx) : gR.offCoord j 0 = 0 :=
  GatherDims.offCoord_eq_zero _ _ _ (fun h => ((GatherDims.mem_sKept _ _).mp h).1 (List.mem_singleton.mpr rfl))

theorem gR_off_1 (j : S8x512x512x32.Idx) : gR.offCoord j 1 = (j 3).val := by
  simp [GatherDims.offCoord, gR, gather_S100x32_S8x512x512x1_S8x512x512x32_3_0_n_n_0_3_132, Shape.kept]; rfl

theorem gR_start_1 (j : S8x512x512x32.Idx) (idx : IVec S8x512x512x1 32) : gR.start j idx 1 = 0 := by
  have hn : ¬ (1 : Fin S100x32.rank) ∈ gR.startIndexMap := by
    show ¬ (1 : Fin 2) ∈ [(0 : Fin 2)]
    decide
  unfold GatherDims.start
  rw [dif_neg hn]

/-- THE GATHER AT `(n, l, s, h)`: the table at the row the index word `idx[n, l, s, 0]` names, read signed and clamped
    into [0, 99], and column `h`. -/
theorem gather_rows {α : Type} (x : S100x32.Idx → α) (idx : IVec S8x512x512x1 32) (n : Fin 8) (l s : Fin 512) (h : Fin 32) :
    Host.gather gR x idx (ix4 n l s h) = x (ix2 (rowOf (idx (ix4 n l s (0 : Fin 1)))) h) := by
  unfold Host.gather
  congr 1
  funext a
  refine Fin.ext ?_
  match a with
  | ⟨0, hlt⟩ =>
    show gR.start (ix4 n l s h) idx 0 + gR.batchCoord (ix4 n l s h) 0 + gR.offCoord (ix4 n l s h) 0
      = (rowOf (idx (ix4 n l s (0 : Fin 1)))).val
    rw [GatherDims.batchCoord_eq_zero _ _ _ List.not_mem_nil, gR_off_0]
    simp only [Nat.add_zero]
    unfold GatherDims.start
    rw [dif_pos (show (0 : Fin 2) ∈ gR.startIndexMap from List.mem_singleton.mpr rfl)]
    have hsi : gR.siIdx (ix4 n l s h) ⟨List.idxOf (0 : Fin 2) gR.startIndexMap,
        List.idxOf_lt_length_iff.2 (List.mem_singleton.mpr rfl)⟩ = ix4 n l s (0 : Fin 1) := by
      funext b; refine Fin.ext ?_
      match b with
      | ⟨0, _⟩ => rfl
      | ⟨1, _⟩ => rfl
      | ⟨2, _⟩ => rfl
      | ⟨3, _⟩ => rfl
    rw [hsi]
    rfl
  | ⟨1, hlt⟩ =>
    show gR.start (ix4 n l s h) idx 1 + gR.batchCoord (ix4 n l s h) 1 + gR.offCoord (ix4 n l s h) 1 = h.val
    rw [GatherDims.batchCoord_eq_zero _ _ _ List.not_mem_nil, gR_start_1, gR_off_1, Nat.zero_add]

/-! ## The reference at an element -/

/-- The reference's result as one function of the score array, the position array and the row-0-zeroed table: at
    element `(n, h, l, s)` the score plus the table at row `clamp (pos n l s)`, column `h`. -/
def refFn (qk : FVec Ideal S8x32x512x512 .f32) (pos : IVec S8x512x512 32) (T : FVec Ideal S100x32 .f32) :
    FVec Ideal S8x32x512x512 .f32 :=
  fun i => (qk i : EReal) + T (ix2 (rowOf (pos (ix3 (i 0) (i 2) (i 3)))) (i 1))

/-- The index array the gather reads, at `(n, l, s, 0)`, is the position word itself when it is non-negative. -/
theorem index_word (x1 : IVec S8x512x512 32) (hpos : ∀ i, 0 ≤ (x1 i).toInt) (n : Fin 8) (l s : Fin 512) :
    val_main_v8 (F := Ideal) x1 (ix4 n l s (0 : Fin 1)) = x1 (ix3 n l s) := by
  have hi : idx_main_v8 (ix4 n l s (0 : Fin 1)) = ix3 n l s := by
    funext a; match a with | ⟨0, _⟩ => rfl | ⟨1, _⟩ => rfl | ⟨2, _⟩ => rfl
  rw [val_main_v8_apply, hi, val_main_v7_apply, val_main_v4_apply, val_main_v6_apply, val_main_v3_apply, val_main_v5_apply,
    val_main_c_0_apply, val_main_c_1_apply]
  exact wrap_of_nonneg _ (hpos _)

/-- THE REFERENCE IS `refFn` of its arguments and the row-0-zeroed table, where the positions are non-negative. -/
theorem ref_eq (x0 : FVec Ideal S8x32x512x512 .f32) (x1 : IVec S8x512x512 32) (x2 : FVec Ideal S100x32 .f32)
    (hpos : ∀ i, 0 ≤ (x1 i).toInt) :
    val_main_v11 (F := Ideal) x0 x1 x2 = refFn x0 x1 (val_main_v2 (F := Ideal) x2) := by
  funext i
  obtain ⟨n, h, l, s, rfl⟩ : ∃ (n : Fin 8) (h : Fin 32) (l s : Fin 512), i = ix4 n h l s := ⟨i 0, i 1, i 2, i 3, eq_ix4 i⟩
  have hi : idx_main_v10 (ix4 n h l s) = ix4 n l s h := by
    funext a; match a with | ⟨0, _⟩ => rfl | ⟨1, _⟩ => rfl | ⟨2, _⟩ => rfl | ⟨3, _⟩ => rfl
  rw [val_main_v11_apply, val_main_v10_apply, hi]
  unfold val_main_v9
  rw [gather_rows, index_word x1 hpos]
  rfl

end Cert.BiasLookup

end
-- ==== Proof.Pre.lean ====
/-
  What the precondition says of the position array: every position word is non-negative, read signed.
-/
import proofs.«422008_j11269994184783_3_alg».proof.Proof.Gen.Pre_finite_inputs
import proofs.«422008_j11269994184783_3_alg».proof.Proof.Words
import Idealize.ShloMosaic.Lib.ValueIdx
import Idealize.ShloMosaic.Lib.ReduceAll

noncomputable section

namespace Cert.BiasLookup

open Idealize.ShloMosaic Idealize.ShloMosaic.ValueIdx

instance : Subsingleton Cert.Pre_finite_inputs.S_.Idx := ⟨fun a b => funext fun d => d.elim0⟩

/-- The printed precondition all ones says, of its integer argument, that every word is at least 0 signed: its last
    conjunct is the reduction by `and` over the whole array of the comparison `pos ≥ 0`. -/
theorem pos_nonneg {F : FTy → Type} [FloatOps F] (qk : FVec F Cert.Pre_finite_inputs.S8x32x512x512 .f32)
    (pos : IVec Cert.Pre_finite_inputs.S8x512x512 32) (tab : FVec F Cert.Pre_finite_inputs.S100x32 .f32)
    (h : Cert.Pre_finite_inputs.fn (F := F) qk pos tab = fun _ => 1#1) (i : Cert.Pre_finite_inputs.S8x512x512.Idx) :
    0 ≤ (pos i).toInt := by
  have h0 := congrFun h ix0
  dsimp only [Cert.Pre_finite_inputs.fn] at h0
  have h1 := (IntOp.andi_eq_one.mp h0).2
  have h2 := Host.reduce_andi_all _ _ _ _ ix0 h1 i
  exact nonneg_of_sge (pos i) h2

end Cert.BiasLookup

end
-- ==== Proof.Bridge.lean ====
/-
  The bridge: the table the kernel's region finds is the row-0-zeroed table padded to 128 rows, and below row 100 the
  padded table is the table; the kernel's clip of a position word and the gather's clamp of it name the same row; so the
  kernel's function of the arrays is the reference's.
-/
import proofs.«422008_j11269994184783_3_alg».proof.Proof.Blocks
import proofs.«422008_j11269994184783_3_alg».proof.Proof.HostTable
import proofs.«422008_j11269994184783_3_alg».proof.Proof.Reference
import proofs.«422008_j11269994184783_3_alg».proof.Proof.Pre
import Idealize.ShloMosaic.Lib.StableHlo.Run

noncomputable section

namespace Cert.BiasLookup

open Idealize.ShloMosaic Idealize.ShloMosaic.TcCoe Idealize.SL.Sem Idealize.ShloMosaic.ValueIdx
open Idealize.ShloMosaic.StableHlo

/-- The table window's array as the region finds it: the host prefix's two scatters of the launch's table. -/
theorem table_found (m : (ℓ : Loc Cert.KernelIdeal.nD Cert.KernelIdeal.τ Cert.KernelIdeal.sig) → Buf (Elt Ideal) ℓ)
    (c : Dev Cert.KernelIdeal.nD) :
    (Cert.KernelIdeal.Gen.V m c Cert.KernelIdeal.main_v5 : FVec Ideal Cert.KernelIdeal.S128x32 .f32)
      = padded (F := Ideal) (tableK (F := Ideal) (m ((c : Thread Cert.KernelIdeal.nD Cert.KernelIdeal.τ).loc Cert.KernelIdeal.main_arg2))) := by
  dsimp only [Cert.KernelIdeal.Gen.V, Cert.KernelIdeal.Gen.hostOps0]
  after_results
  rfl

/-- The row-0-zeroed table is one term in both programs. -/
theorem tableK_eq (x2 : FVec Ideal Cert.KernelIdeal.S100x32 .f32) :
    tableK x2 = Cert.ReferenceIdeal.Read.val_main_v2 (F := Ideal) x2 := rfl

/-- THE TWO FUNCTIONS ARE ONE: the kernel reads the padded table at the clipped row, which is below 100, where the
    padded table is the table; and the clipped row is the clamped row. -/
theorem kernelFn_eq_refFn (qk : FVec Ideal Cert.KernelIdeal.S8x32x512x512 .f32) (pos : IVec Cert.KernelIdeal.S8x512x512 32)
    (x2 : FVec Ideal Cert.KernelIdeal.S100x32 .f32) :
    kernelFn qk pos (padded (tableK x2)) = refFn qk pos (Cert.ReferenceIdeal.Read.val_main_v2 (F := Ideal) x2) := by
  funext i
  unfold kernelFn refFn
  refine congrArg (fun t : EReal => (qk i : EReal) + t) ?_
  rw [← tableK_eq]
  have hr : rowK (pos (ix3 (i 0) (i 2) (i 3)))
      = (⟨(rowOf (pos (ix3 (i 0) (i 2) (i 3)))).val, by have := (rowOf (pos (ix3 (i 0) (i 2) (i 3)))).isLt; omega⟩ : Fin 128) :=
    Fin.ext (rowK_val _)
  rw [hr]
  exact padded_apply (tableK x2) (rowOf (pos (ix3 (i 0) (i 2) (i 3)))) (i 1)

end Cert.BiasLookup

end
-- ==== Proof.lean ====
/-
  The kernel adds to each attention score `QK[n, h, l, s]` a bias looked up in a 100-row embedding table whose row 0 is
  set to zero: the table's entry at row `pos[n, l, s]` and column `h`. The reference does the lookup by a gather, which
  wraps a negative index by 100 and then clamps it into [0, 99]. The kernel clips the index into [0, 99], builds a
  one-hot row over 128 categories, and contracts it on the matrix unit against the table padded with zero rows to 128
  rows; over the extended reals the contraction of a one-hot row with a column is the selected entry, with no
  finiteness needed (a product with zero is zero). Clip and clamp agree on every word; the wrap is the identity on a
  non-negative word, which is what the precondition's conjunct `pos ≥ 0` supplies (on a negative index the reference
  reads row `pos + 100` where the kernel reads the zero row 0).

  The frames of the two kernel programs and the reference's run are the generated ones; the kernel's value is read off
  its generated blockwise run: the stored value at an element (Payload), block `t` of one function of the arrays and the
  cover of the result array by the 8 × 16 blocks (Blocks), the table the host prefix leaves (HostTable, Bridge); the
  reference's value at an element is read through its gather (Reference); the precondition gives the sign of the
  position words (Pre).
-/
import proofs.«422008_j11269994184783_3_alg».proof.Defs
import proofs.«422008_j11269994184783_3_alg».proof.Proof.Gen.Kernel
import proofs.«422008_j11269994184783_3_alg».proof.Proof.Gen.Kernel.Skeleton
import proofs.«422008_j11269994184783_3_alg».proof.Proof.Gen.Kernel.Launch
import proofs.«422008_j11269994184783_3_alg».proof.Proof.Gen.Kernel.Points
import proofs.«422008_j11269994184783_3_alg».proof.Proof.Gen.Kernel.Frame
import proofs.«422008_j11269994184783_3_alg».proof.Proof.Gen.KernelIdeal
import proofs.«422008_j11269994184783_3_alg».proof.Proof.Gen.KernelIdeal.Skeleton
import proofs.«422008_j11269994184783_3_alg».proof.Proof.Gen.KernelIdeal.Launch
import proofs.«422008_j11269994184783_3_alg».proof.Proof.Gen.KernelIdeal.Points
import proofs.«422008_j11269994184783_3_alg».proof.Proof.Gen.KernelIdeal.Frame
import proofs.«422008_j11269994184783_3_alg».proof.Proof.Gen.ReferenceIdeal
import proofs.«422008_j11269994184783_3_alg».proof.Proof.Gen.Pre_finite_inputs
import proofs.«422008_j11269994184783_3_alg».proof.Proof.Gen.KernelIdeal.Value
import proofs.«422008_j11269994184783_3_alg».proof.Proof.Gen.ReferenceIdeal.Run
import proofs.«422008_j11269994184783_3_alg».proof.Proof.Gen.ReferenceIdeal.Read
import proofs.«422008_j11269994184783_3_alg».proof.Proof.Bridge
import Idealize.ShloMosaic.Adequacy
import Idealize.ShloMosaic.Init

noncomputable section

namespace Cert.Proof

open Idealize.ShloMosaic Idealize.ShloMosaic.TcCoe Idealize.SL.Sem Cert.BiasLookup

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: there is nothing to preserve. -/
theorem preserves : Cert.preserves_Kernel_KernelIdeal := trivial

/-- Both runs end with the result array at the score plus the looked-up table entry: the kernel's at `kernelFn` of the
    launch arrays and the padded table, the reference's at `refFn` of the same arrays and the row-0-zeroed table, and
    the two are one function where the positions are non-negative. -/
theorem algebraic : Cert.algebraic_KernelIdeal_ReferenceIdeal := by
  intro m ρ m' ρ' hpre hagree
  refine ⟨fun c => kernelFn (m ((c : Thread Cert.KernelIdeal.nD Cert.KernelIdeal.τ).loc Cert.KernelIdeal.main_arg0))
      (m ((c : Thread Cert.KernelIdeal.nD Cert.KernelIdeal.τ).loc Cert.KernelIdeal.main_arg1))
      (Cert.KernelIdeal.Gen.V m c Cert.KernelIdeal.main_v5), run_kernel m ρ, ?_⟩
  refine (θ_run Cert.ReferenceIdeal.defs _ _).mono (fun _ h c => ⟨(h c).1.trans ?_, (h c).2⟩)
    (Cert.ReferenceIdeal.Value.run (F := Ideal) m' ρ')
  have hpos : ∀ i, 0 ≤ ((m ((c : Thread Cert.KernelIdeal.nD Cert.KernelIdeal.τ).loc Cert.KernelIdeal.main_arg1)) i).toInt :=
    fun i => pos_nonneg _ _ _ (hpre c) i
  rw [Cert.ReferenceIdeal.Read.val_main_v11_eq, (hagree c).1, (hagree c).2.1, (hagree c).2.2,
    ref_eq _ _ _ hpos]
  show refFn _ _ _ = kernelFn _ _ (Cert.KernelIdeal.Gen.V m c Cert.KernelIdeal.main_v5)
  rw [table_found, kernelFn_eq_refFn]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
